-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x50000x64 : Shape := ⟨3, ![4, 50000, 64]⟩
abbrev S2x800000 : Shape := ⟨2, ![2, 800000]⟩
abbrev S800000 : Shape := ⟨1, ![800000]⟩
abbrev S64x256 : Shape := ⟨2, ![64, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S4x50000x64 : S_.BroadcastsInDim S4x50000x64 (![] : Fin 0 → Fin S4x50000x64.rank)
  reducesTo_S4x50000x64_S_d0_1_2 : S4x50000x64.ReducesTo [0, 1, 2] S_
  h_S_ : 0 < S_.numel
  bcast_S_S800000 : S_.BroadcastsInDim S800000 (![] : Fin 0 → Fin S800000.rank)
  reducesTo_S800000_S_d0 : S800000.ReducesTo [0] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S256x64 .f32) (main_arg6 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg5
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S4x50000x64 .f32) (main_arg1 : IVec S2x800000 32) (main_arg2 : FVec F S800000 .f32) (main_arg3 : FVec F S64x256 .f32) (main_arg4 : FVec F S256 .f32) (main_arg5 : FVec F S256x64 .f32) (main_arg6 : FVec F S64 .f32) : IVec S_ 1 :=
  let main_v0 : FVec F S4x50000x64 .f32 := Host.absf main_arg0
  let main_cst : FVec F S_ .f32 := constant S_ .f32 0x7F800000#32
  let main_v1 : FVec F S4x50000x64 .f32 := broadcastInDim S4x50000x64 ![] bcast_S_S4x50000x64 main_cst
  let main_v2 : IVec S4x50000x64 1 := cmpf .olt main_v0 main_v1
  let main_c : IVec S_ 1 := constantI S_ 1 1#1
  let main_v3 : IVec S_ 1 := (fun x v => Host.reduce IntOp.andi x v reducesTo_S4x50000x64_S_d0_1_2 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x256 .f32 := Host.absf main_arg3
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S4x50000x64 : Shape := ⟨3, ![4, 50000, 64]⟩
abbrev S2x800000 : Shape := ⟨2, ![2, 800000]⟩
abbrev S800000 : Shape := ⟨1, ![800000]⟩
abbrev S64x256 : Shape := ⟨2, ![64, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S50000x4x64 : Shape := ⟨3, ![50000, 4, 64]⟩
abbrev S50000x256 : Shape := ⟨2, ![50000, 256]⟩
abbrev S800000x1 : Shape := ⟨2, ![800000, 1]⟩
abbrev S_ : Shape := ⟨0, ![]⟩
abbrev S800000x256 : Shape := ⟨2, ![800000, 256]⟩
abbrev S200000x64 : Shape := ⟨2, ![200000, 64]⟩
abbrev S1x256 : Shape := ⟨2, ![1, 256]⟩
abbrev S1x64 : Shape := ⟨2, ![1, 64]⟩
abbrev S4000x64 : Shape := ⟨2, ![4000, 64]⟩
abbrev S4000x256 : Shape := ⟨2, ![4000, 256]⟩

abbrev nBuf : Space → Nat
  | .hbm => 36
  | .vmem => 8
  | .smem => 0
  | _ => 0

abbrev bufTy : (tb : Table) → Fin (tcTables nBuf tb) → BufTy
  | .hbm, ⟨0, _⟩ => ⟨S4x50000x64, .f32⟩
  | .hbm, ⟨1, _⟩ => ⟨S2x800000, .i32⟩
  | .hbm, ⟨2, _⟩ => ⟨S800000, .f32⟩
  | .hbm, ⟨3, _⟩ => ⟨S64x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000x4x64, .f32⟩
  | .hbm, ⟨12, _⟩ => ⟨S50000x256, .f32⟩
  | .hbm, ⟨13, _⟩ => ⟨S800000x1, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x256, .f32⟩
  | .hbm, ⟨23, _⟩ => ⟨S800000x256, .f32⟩
  | .hbm, ⟨24, _⟩ => ⟨S800000x256, .f32⟩
  | .hbm, ⟨25, _⟩ => ⟨S_, .f32⟩
  | .hbm, ⟨26, _⟩ => ⟨S50000x256, .f32⟩
  | .hbm, ⟨27, _⟩ => ⟨S800000x1, .i32⟩
  | .hbm, ⟨28, _⟩ => ⟨S50000x256, .f32⟩
  | .hbm, ⟨29, _⟩ => ⟨S50000x4x64, .f32⟩
  | .hbm, ⟨30, _⟩ => ⟨S4x50000x64, .f32⟩
  | .hbm, ⟨31, _⟩ => ⟨S200000x64, .f32⟩
  | .hbm, ⟨32, _⟩ => ⟨S1x256, .f32⟩
  | .hbm, ⟨33, _⟩ => ⟨S1x64, .f32⟩
  | .hbm, ⟨34, _⟩ => ⟨S200000x64, .f32⟩
  | .hbm, ⟨35, _⟩ => ⟨S4x50000x64, .f32⟩
  | .local _ .vmem, ⟨0, _⟩ => ⟨S4000x64, .f32⟩
  | .local _ .vmem, ⟨1, _⟩ => ⟨S4000x64, .f32⟩
  | .local _ .vmem, ⟨2, _⟩ => ⟨S64x256, .f32⟩
  | .local _ .vmem, ⟨3, _⟩ => ⟨S1x256, .f32⟩
  | .local _ .vmem, ⟨4, _⟩ => ⟨S256x64, .f32⟩
  | .local _ .vmem, ⟨5, _⟩ => ⟨S1x64, .f32⟩
  | .local _ .vmem, ⟨6, _⟩ => ⟨S4000x64, .f32⟩
  | .local _ .vmem, ⟨7, _⟩ => ⟨S4000x64, .f32⟩
  | _, _ => ⟨S4x50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S4x50000x64_S50000x4x64_1_0_2 : S4x50000x64.Transposes [1, 0, 2] S50000x4x64
  shapeCasts_S50000x4x64_S50000x256 : S50000x4x64.ShapeCasts S50000x256
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S50000x256_S50000x4x64 : S50000x256.ShapeCasts S50000x4x64
  transposes_S50000x4x64_S4x50000x64_1_0_2 : S50000x4x64.Transposes [1, 0, 2] S4x50000x64
  shapeCasts_S4x50000x64_S200000x64 : S4x50000x64.ShapeCasts S200000x64
  shapeCasts_S256_S1x256 : S256.ShapeCasts S1x256
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  shapeCasts_S200000x64_S4x50000x64 : S200000x64.ShapeCasts S4x50000x64
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S4000x64_S64x256_S4000x256_1_0_0_1_n_n_wf : DotDims.WF S4000x64 S64x256 S4000x256 [1] [0] [0] [1] [] []
  dot_S4000x256_S256x64_S4000x64_1_0_0_1_n_n_wf : DotDims.WF S4000x256 S256x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S200000x64.size a
  hwx0_0 : ∀ i : grid0.Coords, EltTy.bits .f32 = 32 ∨ (Rect.block (s := S200000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S200000x64.size a
  hwx0_5 : ∀ i : grid0.Coords, EltTy.bits .f32 = 32 ∨ (Rect.block (s := S200000x64) S4000x64.size (cc0_transform_5 i) (hinb0_5 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S4000x64_S64x256_S4000x256_1_0_0_1_n_n : DotDims S4000x64 S64x256 S4000x256 where
  lhsContracting := [1]
  rhsContracting := [0]
  lhsNonContracting := [0]
  rhsNonContracting := [1]
  lhsBatch := []
  rhsBatch := []
  wf := dot_S4000x64_S64x256_S4000x256_1_0_0_1_n_n_wf
def dot_S4000x256_S256x64_S4000x64_1_0_0_1_n_n : DotDims S4000x256 S256x64 S4000x64 where
  lhsContracting := [1]
  rhsContracting := [0]
  lhsNonContracting := [0]
  rhsNonContracting := [1]
  lhsBatch := []
  rhsBatch := []
  wf := dot_S4000x256_S256x64_S4000x64_1_0_0_1_n_n_wf

abbrev win0_0 : Pipeline.Window sig grid0 :=
  Pipeline.Window.ofSpec (Memref.whole main_v21) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S4000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x50000x64 : Shape := ⟨3, ![4, 50000, 64]⟩
abbrev S2x800000 : Shape := ⟨2, ![2, 800000]⟩
abbrev S800000 : Shape := ⟨1, ![800000]⟩
abbrev S64x256 : Shape := ⟨2, ![64, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S50000x4x64 : Shape := ⟨3, ![50000, 4, 64]⟩
abbrev S50000x256 : Shape := ⟨2, ![50000, 256]⟩
abbrev S800000x1 : Shape := ⟨2, ![800000, 1]⟩
abbrev S_ : Shape := ⟨0, ![]⟩
abbrev S800000x256 : Shape := ⟨2, ![800000, 256]⟩
abbrev S4x50000x256 : Shape := ⟨3, ![4, 50000, 256]⟩
abbrev S1x1x256 : Shape := ⟨3, ![1, 1, 256]⟩
abbrev S1x1x64 : Shape := ⟨3, ![1, 1, 64]⟩

abbrev nBuf : Space → Nat
  | .hbm => 42
  | .vmem => 0
  | .smem => 0
  | _ => 0

abbrev bufTy : (tb : Table) → Fin (tcTables nBuf tb) → BufTy
  | .hbm, ⟨0, _⟩ => ⟨S4x50000x64, .f32⟩
  | .hbm, ⟨1, _⟩ => ⟨S2x800000, .i32⟩
  | .hbm, ⟨2, _⟩ => ⟨S800000, .f32⟩
  | .hbm, ⟨3, _⟩ => ⟨S64x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000x4x64, .f32⟩
  | .hbm, ⟨12, _⟩ => ⟨S50000x256, .f32⟩
  | .hbm, ⟨13, _⟩ => ⟨S800000x1, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x256, .f32⟩
  | .hbm, ⟨23, _⟩ => ⟨S800000x256, .f32⟩
  | .hbm, ⟨24, _⟩ => ⟨S800000x256, .f32⟩
  | .hbm, ⟨25, _⟩ => ⟨S_, .f32⟩
  | .hbm, ⟨26, _⟩ => ⟨S50000x256, .f32⟩
  | .hbm, ⟨27, _⟩ => ⟨S800000x1, .i32⟩
  | .hbm, ⟨28, _⟩ => ⟨S50000x256, .f32⟩
  | .hbm, ⟨29, _⟩ => ⟨S50000x4x64, .f32⟩
  | .hbm, ⟨30, _⟩ => ⟨S4x50000x64, .f32⟩
  | .hbm, ⟨31, _⟩ => ⟨S4x50000x256, .f32⟩
  | .hbm, ⟨32, _⟩ => ⟨S1x1x256, .f32⟩
  | .hbm, ⟨33, _⟩ => ⟨S4x50000x256, .f32⟩
  | .hbm, ⟨34, _⟩ => ⟨S4x50000x256, .f32⟩
  | .hbm, ⟨35, _⟩ => ⟨S_, .f32⟩
  | .hbm, ⟨36, _⟩ => ⟨S4x50000x256, .f32⟩
  | .hbm, ⟨37, _⟩ => ⟨S4x50000x256, .f32⟩
  | .hbm, ⟨38, _⟩ => ⟨S4x50000x64, .f32⟩
  | .hbm, ⟨39, _⟩ => ⟨S1x1x64, .f32⟩
  | .hbm, ⟨40, _⟩ => ⟨S4x50000x64, .f32⟩
  | .hbm, ⟨41, _⟩ => ⟨S4x50000x64, .f32⟩
  | _, _ => ⟨S4x50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_cst : Ref sig .tc := ⟨.hbm, 35, rfl⟩
abbrev main_call0_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S4x50000x64_S50000x4x64_1_0_2 : S4x50000x64.Transposes [1, 0, 2] S50000x4x64
  shapeCasts_S50000x4x64_S50000x256 : S50000x4x64.ShapeCasts S50000x256
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S50000x256_S50000x4x64 : S50000x256.ShapeCasts S50000x4x64
  transposes_S50000x4x64_S4x50000x64_1_0_2 : S50000x4x64.Transposes [1, 0, 2] S4x50000x64
  bcast_S256_S1x1x256_2 : S256.BroadcastsInDim S1x1x256 (![2] : Fin 1 → Fin S1x1x256.rank)
  bcast_S1x1x256_S4x50000x256_0_1_2 : S1x1x256.BroadcastsInDim S4x50000x256 (![0, 1, 2] : Fin 3 → Fin S4x50000x256.rank)
  bcast_S_S4x50000x256 : S_.BroadcastsInDim S4x50000x256 (![] : Fin 0 → Fin S4x50000x256.rank)
  bcast_S64_S1x1x64_2 : S64.BroadcastsInDim S1x1x64 (![2] : Fin 1 → Fin S1x1x64.rank)
  bcast_S1x1x64_S4x50000x64_0_1_2 : S1x1x64.BroadcastsInDim S4x50000x64 (![0, 1, 2] : Fin 3 → Fin S4x50000x64.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S4x50000x64_S64x256_S4x50000x256_2_0_01_1_n_n_wf : DotDims.WF S4x50000x64 S64x256 S4x50000x256 [2] [0] [0, 1] [1] [] []
  dot_S4x50000x256_S256x64_S4x50000x64_2_0_01_1_n_n_wf : DotDims.WF S4x50000x256 S256x64 S4x50000x64 [2] [0] [0, 1] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S4x50000x64_S64x256_S4x50000x256_2_0_01_1_n_n : DotDims S4x50000x64 S64x256 S4x50000x256 where
  lhsContracting := [2]
  rhsContracting := [0]
  lhsNonContracting := [0, 1]
  rhsNonContracting := [1]
  lhsBatch := []
  rhsBatch := []
  wf := dot_S4x50000x64_S64x256_S4x50000x256_2_0_01_1_n_n_wf
def dot_S4x50000x256_S256x64_S4x50000x64_2_0_01_1_n_n : DotDims S4x50000x256 S256x64 S4x50000x64 where
  lhsContracting := [2]
  rhsContracting := [0]
  lhsNonContracting := [0, 1]
  rhsNonContracting := [1]
  lhsBatch := []
  rhsBatch := []
  wf := dot_S4x50000x256_S256x64_S4x50000x64_2_0_01_1_n_n_wf

class Facts : Prop extends Facts₀ where

variable [Facts]
-- ==== Proof.MlpSpec.lean ====
/-
  The two-layer perceptron both programs apply to the mixed features, stated once over plain arrays.

  For one row `r` of 64 features, weights `w1 : 64 × 256`, `w2 : 256 × 64` and biases `b1`, `b2`, output
  entry `o` is

      (∑ h, max ((∑ c, r c · w1 c h) + b1 h) 0 · w2 h o) + b2 o

  on the extended reals, the zero of the rectifier kept as the float word both programs print. The same
  entry is read three ways: over the [4, 50000, 64] array the reference works on, over its row-major
  flattening [200000, 64] that the kernel's pipeline tiles, and over one [4000, 64] tile. No algebraic law
  is involved: the two programs compute this one expression, and only the indexing differs.
-/
import Idealize.ShloMosaic.PureOps.Ideal
import Idealize.ShloMosaic.Lib.ValueIdx

noncomputable section

namespace Cert.Mlp

open Idealize.ShloMosaic Idealize.ShloMosaic.ValueIdx

/-- The rectifier's threshold: the float word of zero, read at the ideal values. -/
abbrev zeroWord : EReal := Ideal.ofBits .f32 0x00000000#32

/-- Output entry `o` of the perceptron on one row of features. -/
def entry (row : Fin 64 → EReal) (w1 : Fin 64 → Fin 256 → EReal) (b1 : Fin 256 → EReal)
    (w2 : Fin 256 → Fin 64 → EReal) (b2 : Fin 64 → EReal) (o : Fin 64) : EReal :=
  (∑ h : Fin 256, max ((∑ c : Fin 64, row c * w1 c h) + b1 h) zeroWord * w2 h o) + b2 o

/-- The perceptron over a [4, 50000, 64] array of features, biases as vectors: row (b, n), entry o. -/
def onBatch (xm : FVec Ideal ⟨3, ![4, 50000, 64]⟩ .f32) (w1 : FVec Ideal ⟨2, ![64, 256]⟩ .f32)
    (b1 : FVec Ideal ⟨1, ![256]⟩ .f32) (w2 : FVec Ideal ⟨2, ![256, 64]⟩ .f32) (b2 : FVec Ideal ⟨1, ![64]⟩ .f32) :
    FVec Ideal ⟨3, ![4, 50000, 64]⟩ .f32 := fun i =>
  entry (fun c => xm (ix3 (i 0) (i 1) c)) (fun c h => w1 (ix2 c h)) (fun h => b1 (ix1 h))
    (fun h o => w2 (ix2 h o)) (fun o => b2 (ix1 o)) (i 2)

/-- The perceptron over the flattened [200000, 64] features, biases as one-row matrices: row r, entry o. -/
def onRows (xf : FVec Ideal ⟨2, ![200000, 64]⟩ .f32) (w1 : FVec Ideal ⟨2, ![64, 256]⟩ .f32)
    (b1 : FVec Ideal ⟨2, ![1, 256]⟩ .f32) (w2 : FVec Ideal ⟨2, ![256, 64]⟩ .f32) (b2 : FVec Ideal ⟨2, ![1, 64]⟩ .f32) :
    FVec Ideal ⟨2, ![200000, 64]⟩ .f32 := fun i =>
  entry (fun c => xf (ix2 (i 0) c)) (fun c h => w1 (ix2 c h)) (fun h => b1 (ix2 0 h))
    (fun h o => w2 (ix2 h o)) (fun o => b2 (ix2 0 o)) (i 1)

/-- The perceptron over one [4000, 64] tile of rows. -/
def onTile (xt : FVec Ideal ⟨2, ![4000, 64]⟩ .f32) (w1 : FVec Ideal ⟨2, ![64, 256]⟩ .f32)
    (b1 : FVec Ideal ⟨2, ![1, 256]⟩ .f32) (w2 : FVec Ideal ⟨2, ![256, 64]⟩ .f32) (b2 : FVec Ideal ⟨2, ![1, 64]⟩ .f32) :
    FVec Ideal ⟨2, ![4000, 64]⟩ .f32 := fun i =>
  entry (fun c => xt (ix2 (i 0) c)) (fun c h => w1 (ix2 c h)) (fun h => b1 (ix2 0 h))
    (fun h o => w2 (ix2 h o)) (fun o => b2 (ix2 0 o)) (i 1)

end Cert.Mlp

end
-- ==== Proof.BodyValue.lean ====
/-
  What the kernel body stores, entry by entry. The body casts a [4000, 64] tile of rows and the two weight
  matrices to bfloat16 (no change on the extended reals), multiplies the tile by W1 into a zero accumulator,
  adds the one-row bias b1 to every row, takes the maximum with zero, multiplies by W2 into a zero
  accumulator and adds the one-row bias b2: at (p, q) that is the perceptron's entry q on row p of the tile.
-/
import proofs.«104502_j44951127720359_1_alg».proof.Proof.Gen.KernelIdeal.Skeleton
import proofs.«104502_j44951127720359_1_alg».proof.Proof.MlpSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-! ## The first product: [4000, 64] by [64, 256] -/

theorem lhs1_0 (i : S4000x256.Idx) (q : dot_S4000x64_S64x256_S4000x256_1_0_0_1_n_n.contr.Idx) :
    (dot_S4000x64_S64x256_S4000x256_1_0_0_1_n_n.lhsIdx i q 0).val = (i 0).val := by
  unfold DotDims.lhsIdx
  rw [dif_neg (show ¬(0 : Fin S4000x64.rank) ∈ dot_S4000x64_S64x256_S4000x256_1_0_0_1_n_n.lhsBatch by decide), dif_pos (show (0 : Fin S4000x64.rank) ∈ dot_S4000x64_S64x256_S4000x256_1_0_0_1_n_n.lhsNonContracting by decide)]
  rfl
theorem lhs1_1 (i : S4000x256.Idx) (q : dot_S4000x64_S64x256_S4000x256_1_0_0_1_n_n.contr.Idx) :
    (dot_S4000x64_S64x256_S4000x256_1_0_0_1_n_n.lhsIdx i q 1).val = (q ⟨0, by decide⟩).val :=
  dot_S4000x64_S64x256_S4000x256_1_0_0_1_n_n.lhsIdx_val_of_single rfl i q
theorem rhs1_0 (i : S4000x256.Idx) (q : dot_S4000x64_S64x256_S4000x256_1_0_0_1_n_n.contr.Idx) :
    (dot_S4000x64_S64x256_S4000x256_1_0_0_1_n_n.rhsIdx i q 0).val = (q ⟨0, by decide⟩).val :=
  dot_S4000x64_S64x256_S4000x256_1_0_0_1_n_n.rhsIdx_val_of_single rfl i q
theorem rhs1_1 (i : S4000x256.Idx) (q : dot_S4000x64_S64x256_S4000x256_1_0_0_1_n_n.contr.Idx) :
    (dot_S4000x64_S64x256_S4000x256_1_0_0_1_n_n.rhsIdx i q 1).val = (i 1).val := by
  unfold DotDims.rhsIdx
  rw [dif_neg (show ¬(1 : Fin S64x256.rank) ∈ dot_S4000x64_S64x256_S4000x256_1_0_0_1_n_n.rhsBatch by decide), dif_pos (show (1 : Fin S64x256.rank) ∈ dot_S4000x64_S64x256_S4000x256_1_0_0_1_n_n.rhsNonContracting by decide)]
  rfl

/-- Entry (p, h) of the first product is the sum over the 64 features of row p times column h. -/
theorem product1_apply (l : FVec Ideal S4000x64 .bf16) (r : FVec Ideal S64x256 .bf16) (p : Fin 4000) (h : Fin 256) :
    matmul dot_S4000x64_S64x256_S4000x256_1_0_0_1_n_n none l r (constant (F := Ideal) S4000x256 .f32 0x00000000#32) (ix2 p h)
      = ∑ c : Fin 64, l (ix2 p c) * r (ix2 c h) := by
  simp only [matmul]
  rw [Ideal.matmul_constant_zero_apply, ← Equiv.sum_comp (contrEquiv1 dot_S4000x64_S64x256_S4000x256_1_0_0_1_n_n 64 rfl rfl).symm]
  refine Finset.sum_congr rfl fun k _ => ?_
  have hk := contrEquiv1_symm_val dot_S4000x64_S64x256_S4000x256_1_0_0_1_n_n 64 rfl rfl k
  have el : dot_S4000x64_S64x256_S4000x256_1_0_0_1_n_n.lhsIdx (ix2 p h) ((contrEquiv1 dot_S4000x64_S64x256_S4000x256_1_0_0_1_n_n 64 rfl rfl).symm k) = ix2 p k := funext fun a => Fin.ext (by
    match a with
    | ⟨0, _⟩ => exact lhs1_0 _ _
    | ⟨1, _⟩ => exact (lhs1_1 _ _).trans hk)
  have er : dot_S4000x64_S64x256_S4000x256_1_0_0_1_n_n.rhsIdx (ix2 p h) ((contrEquiv1 dot_S4000x64_S64x256_S4000x256_1_0_0_1_n_n 64 rfl rfl).symm k) = ix2 k h := funext fun a => Fin.ext (by
    match a with
    | ⟨0, _⟩ => exact (rhs1_0 _ _).trans hk
    | ⟨1, _⟩ => exact rhs1_1 _ _)
  rw [el, er]

/-! ## The second product: [4000, 256] by [256, 64] -/

theorem lhs2_0 (i : S4000x64.Idx) (q : dot_S4000x256_S256x64_S4000x64_1_0_0_1_n_n.contr.Idx) :
    (dot_S4000x256_S256x64_S4000x64_1_0_0_1_n_n.lhsIdx i q 0).val = (i 0).val := by
  unfold DotDims.lhsIdx
  rw [dif_neg (show ¬(0 : Fin S4000x256.rank) ∈ dot_S4000x256_S256x64_S4000x64_1_0_0_1_n_n.lhsBatch by decide), dif_pos (show (0 : Fin S4000x256.rank) ∈ dot_S4000x256_S256x64_S4000x64_1_0_0_1_n_n.lhsNonContracting by decide)]
  rfl
theorem lhs2_1 (i : S4000x64.Idx) (q : dot_S4000x256_S256x64_S4000x64_1_0_0_1_n_n.contr.Idx) :
    (dot_S4000x256_S256x64_S4000x64_1_0_0_1_n_n.lhsIdx i q 1).val = (q ⟨0, by decide⟩).val :=
  dot_S4000x256_S256x64_S4000x64_1_0_0_1_n_n.lhsIdx_val_of_single rfl i q
theorem rhs2_0 (i : S4000x64.Idx) (q : dot_S4000x256_S256x64_S4000x64_1_0_0_1_n_n.contr.Idx) :
    (dot_S4000x256_S256x64_S4000x64_1_0_0_1_n_n.rhsIdx i q 0).val = (q ⟨0, by decide⟩).val :=
  dot_S4000x256_S256x64_S4000x64_1_0_0_1_n_n.rhsIdx_val_of_single rfl i q
theorem rhs2_1 (i : S4000x64.Idx) (q : dot_S4000x256_S256x64_S4000x64_1_0_0_1_n_n.contr.Idx) :
    (dot_S4000x256_S256x64_S4000x64_1_0_0_1_n_n.rhsIdx i q 1).val = (i 1).val := by
  unfold DotDims.rhsIdx
  rw [dif_neg (show ¬(1 : Fin S256x64.rank) ∈ dot_S4000x256_S256x64_S4000x64_1_0_0_1_n_n.rhsBatch by decide), dif_pos (show (1 : Fin S256x64.rank) ∈ dot_S4000x256_S256x64_S4000x64_1_0_0_1_n_n.rhsNonContracting by decide)]
  rfl

/-- Entry (p, q) of the second product is the sum over the 256 hidden units of row p times column q. -/
theorem product2_apply (l : FVec Ideal S4000x256 .bf16) (r : FVec Ideal S256x64 .bf16) (p : Fin 4000) (q : Fin 64) :
    matmul dot_S4000x256_S256x64_S4000x64_1_0_0_1_n_n none l r (constant (F := Ideal) S4000x64 .f32 0x00000000#32) (ix2 p q)
      = ∑ h : Fin 256, l (ix2 p h) * r (ix2 h q) := by
  simp only [matmul]
  rw [Ideal.matmul_constant_zero_apply, ← Equiv.sum_comp (contrEquiv1 dot_S4000x256_S256x64_S4000x64_1_0_0_1_n_n 256 rfl rfl).symm]
  refine Finset.sum_congr rfl fun k _ => ?_
  have hk := contrEquiv1_symm_val dot_S4000x256_S256x64_S4000x64_1_0_0_1_n_n 256 rfl rfl k
  have el : dot_S4000x256_S256x64_S4000x64_1_0_0_1_n_n.lhsIdx (ix2 p q) ((contrEquiv1 dot_S4000x256_S256x64_S4000x64_1_0_0_1_n_n 256 rfl rfl).symm k) = ix2 p k := funext fun a => Fin.ext (by
    match a with
    | ⟨0, _⟩ => exact lhs2_0 _ _
    | ⟨1, _⟩ => exact (lhs2_1 _ _).trans hk)
  have er : dot_S4000x256_S256x64_S4000x64_1_0_0_1_n_n.rhsIdx (ix2 p q) ((contrEquiv1 dot_S4000x256_S256x64_S4000x64_1_0_0_1_n_n 256 rfl rfl).symm k) = ix2 k q := funext fun a => Fin.ext (by
    match a with
    | ⟨0, _⟩ => exact (rhs2_0 _ _).trans hk
    | ⟨1, _⟩ => exact rhs2_1 _ _)
  rw [el, er]

/-! ## The stored value -/

/-- The value the body stores is the perceptron over the tile it loaded. -/
theorem stored_eq (x0 : FVec Ideal S4000x64 .f32) (x1 : FVec Ideal S64x256 .f32) (x2 : FVec Ideal S1x256 .f32)
    (x3 : FVec Ideal S256x64 .f32) (x4 : FVec Ideal S1x64 .f32) :
    k0_pay1 (F := Ideal) x0 x1 x2 x3 x4 = Cert.Mlp.onTile x0 x1 x2 x3 x4 := by
  funext j
  obtain ⟨p, q, rfl⟩ : ∃ (p : Fin 4000) (q : Fin 64), j = ix2 p q := ⟨j 0, j 1, eq_ix2 j⟩
  unfold k0_pay1
  simp only [shapeCast_self]
  rw [addf_apply, product2_apply, broadcastTo_1b_ab_apply]
  unfold Cert.Mlp.onTile Cert.Mlp.entry
  refine congrArg (· + x4 (ix2 0 q)) (Finset.sum_congr rfl fun h _ => ?_)
  rw [truncf_apply, truncf_apply, maximumf_apply, addf_apply, product1_apply, broadcastTo_1b_ab_apply]
  simp only [truncf_apply]
  rfl

end Cert.KernelIdeal.Hand

end
-- ==== Proof.KernelArray.lean ====
/-
  From tiles to the array. The pipeline has 50 points; point t loads rows 4000·t … 4000·t + 3999 of the
  flattened features (all 64 columns), the whole of both weight matrices and both one-row biases, and writes
  the body's result back to the same rows of the output. Every row of the [200000, 64] output lies in exactly
  one tile, so after the run the output array is the perceptron over the flattened features, row by row.
  The five input arrays are whatever the region finds; nothing here looks inside them.
-/
import proofs.«104502_j44951127720359_1_alg».proof.Proof.Gen.KernelIdeal.Frame
import proofs.«104502_j44951127720359_1_alg».proof.Proof.BodyValue

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

theorem zeroOffsets : (![0, 0] : Fin 2 → Nat) = fun _ => 0 := funext fun a => by fin_cases a <;> rfl

/-- The printed index maps over the 50 points: the row tiles of input and output move together, one tile a
    point; every other block index is zero. -/
theorem blockIndices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section Tiles
variable (c : Dev nD) (t : Fin cfg0.N)

/-- The features' tile at point t holds rows 4000·t + p of the array it is cut from. -/
theorem tile_rows (A : Buf (Elt Ideal) ((c : Thread nD τ).loc (Pipeline.arrRef spec0 0))) (y : S4000x64.Idx) (i : S200000x64.Idx)
    (h0 : (i 0).val = t.val * 4000 + (y 0).val) (h1 : (i 1).val = (y 1).val) :
    (((cfg0.win 0).blk t).view.read (Elt Ideal) A : Vec Ideal S4000x64 .f32) y = (A : Vec Ideal S200000x64 .f32) i := by
  obtain ⟨e0, e1, -⟩ := blockIndices t
  show (A : Vec Ideal S200000x64 .f32) (((cfg0.win 0).blk t).view.emb y) = (A : Vec Ideal S200000x64 .f32) i
  refine congrArg (A : Vec Ideal S200000x64 .f32) (funext fun a => Fin.ext ?_)
  match a with
  | ⟨0, _⟩ => show win0_0.index t (0 : Fin 2) * 4000 + 1 * (y 0).val = (i 0).val; omega
  | ⟨1, _⟩ => show win0_0.index t (1 : Fin 2) * 64 + 1 * (y 1).val = (i 1).val; omega

/-- The other four windows hold their whole arrays at every point. -/
theorem tile_w1 (A : Buf (Elt Ideal) ((c : Thread nD τ).loc (Pipeline.arrRef spec0 1))) (y : S64x256.Idx) :
    (((cfg0.win 1).blk t).view.read (Elt Ideal) A : Vec Ideal S64x256 .f32) y = (A : Vec Ideal S64x256 .f32) y := by
  obtain ⟨-, -, e0, e1, -⟩ := blockIndices t
  show (A : Vec Ideal S64x256 .f32) (((cfg0.win 1).blk t).view.emb y) = (A : Vec Ideal S64x256 .f32) y
  refine congrArg (A : Vec Ideal S64x256 .f32) (funext fun a => Fin.ext ?_)
  match a with
  | ⟨0, _⟩ => show win0_1.index t (0 : Fin 2) * 64 + 1 * (y 0).val = (y 0).val; omega
  | ⟨1, _⟩ => show win0_1.index t (1 : Fin 2) * 256 + 1 * (y 1).val = (y 1).val; omega
theorem tile_b1 (A : Buf (Elt Ideal) ((c : Thread nD τ).loc (Pipeline.arrRef spec0 2))) (y : S1x256.Idx) :
    (((cfg0.win 2).blk t).view.read (Elt Ideal) A : Vec Ideal S1x256 .f32) y = (A : Vec Ideal S1x256 .f32) y := by
  obtain ⟨-, -, -, -, e0, e1, -⟩ := blockIndices t
  show (A : Vec Ideal S1x256 .f32) (((cfg0.win 2).blk t).view.emb y) = (A : Vec Ideal S1x256 .f32) y
  refine congrArg (A : Vec Ideal S1x256 .f32) (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega
theorem tile_w2 (A : Buf (Elt Ideal) ((c : Thread nD τ).loc (Pipeline.arrRef spec0 3))) (y : S256x64.Idx) :
    (((cfg0.win 3).blk t).view.read (Elt Ideal) A : Vec Ideal S256x64 .f32) y = (A : Vec Ideal S256x64 .f32) y := by
  obtain ⟨-, -, -, -, -, -, e0, e1, -⟩ := blockIndices t
  show (A : Vec Ideal S256x64 .f32) (((cfg0.win 3).blk t).view.emb y) = (A : Vec Ideal S256x64 .f32) y
  refine congrArg (A : Vec Ideal S256x64 .f32) (funext fun a => Fin.ext ?_)
  match a with
  | ⟨0, _⟩ => show win0_3.index t (0 : Fin 2) * 256 + 1 * (y 0).val = (y 0).val; omega
  | ⟨1, _⟩ => show win0_3.index t (1 : Fin 2) * 64 + 1 * (y 1).val = (y 1).val; omega
theorem tile_b2 (A : Buf (Elt Ideal) ((c : Thread nD τ).loc (Pipeline.arrRef spec0 4))) (y : S1x64.Idx) :
    (((cfg0.win 4).blk t).view.read (Elt Ideal) A : Vec Ideal S1x64 .f32) y = (A : Vec Ideal S1x64 .f32) y := by
  obtain ⟨-, -, -, -, -, -, -, -, e0, e1, -⟩ := blockIndices t
  show (A : Vec Ideal S1x64 .f32) (((cfg0.win 4).blk t).view.emb y) = (A : Vec Ideal S1x64 .f32) y
  refine congrArg (A : Vec Ideal S1x64 .f32) (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- The perceptron over the five tiles of point t is tile t of the perceptron over the five arrays. -/
theorem tile_of_rows
    (A0 : Buf (Elt Ideal) ((c : Thread nD τ).loc (Pipeline.arrRef spec0 0)))
    (A1 : Buf (Elt Ideal) ((c : Thread nD τ).loc (Pipeline.arrRef spec0 1)))
    (A2 : Buf (Elt Ideal) ((c : Thread nD τ).loc (Pipeline.arrRef spec0 2)))
    (A3 : Buf (Elt Ideal) ((c : Thread nD τ).loc (Pipeline.arrRef spec0 3)))
    (A4 : Buf (Elt Ideal) ((c : Thread nD τ).loc (Pipeline.arrRef spec0 4)))
    (j : S4000x64.Idx) (i : S200000x64.Idx)
    (h0 : (i 0).val = t.val * 4000 + (j 0).val) (h1 : (i 1).val = (j 1).val) :
    Cert.Mlp.onTile (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) j
      = Cert.Mlp.onRows A0 A1 A2 A3 A4 i := by
  unfold Cert.Mlp.onRows Cert.Mlp.onTile Cert.Mlp.entry
  have hq : (i 1 : Fin 64) = j 1 := Fin.ext h1
  simp only [tile_w1 c t, tile_b1 c t, tile_w2 c t, tile_b2 c t, hq]
  refine congrArg (· + _) (Finset.sum_congr rfl fun h _ => ?_)
  refine congrArg (fun s => max (s + _) _ * _) (Finset.sum_congr rfl fun k _ => ?_)
  rw [tile_rows c t A0 (ix2 (j 0) k) (ix2 (i 0) k) h0 rfl]

end Tiles

/-- The output array after the run, as one function of the five arrays the region finds. -/
def rowsOut (c : Dev nD) : Vec Ideal S200000x64 .f32 :=
  Cert.Mlp.onRows (V m c (Pipeline.arrRef spec0 0)) (V m c (Pipeline.arrRef spec0 1)) (V m c (Pipeline.arrRef spec0 2))
    (V m c (Pipeline.arrRef spec0 3)) (V m c (Pipeline.arrRef spec0 4))

/-- What point t writes back is tile t of that function. -/
theorem flushed_eq (c : Dev nD) (t : Fin cfg0.N) :
    (dats m 0 c).flushed 5 t = ((cfg0.win 5).blk t).view.read (Elt Ideal) (rowsOut m c) := by
  show (cfg0.win 5).cut (grid0.coords t) ((dats m 0 c).after 5 t) = _
  rw [after0_5]
  unfold out0_5
  rw [View.canon_unit_zero zeroOffsets]
  simp only [View.ld_unit_zero (S := S4000x64) zeroOffsets, View.ld_unit_zero (S := S64x256) zeroOffsets,
    View.ld_unit_zero (S := S1x256) zeroOffsets, View.ld_unit_zero (S := S256x64) zeroOffsets,
    View.ld_unit_zero (S := S1x64) zeroOffsets]
  rw [stored_eq]
  unfold rowsOut iblk
  with_reducible generalize V m c (Pipeline.arrRef spec0 0) = A0
  with_reducible generalize V m c (Pipeline.arrRef spec0 1) = A1
  with_reducible generalize V m c (Pipeline.arrRef spec0 2) = A2
  with_reducible generalize V m c (Pipeline.arrRef spec0 3) = A3
  with_reducible generalize V m c (Pipeline.arrRef spec0 4) = A4
  generalize hG : Cert.Mlp.onRows A0 A1 A2 A3 A4 = G
  obtain ⟨-, -, -, -, -, -, -, -, -, -, e0, e1⟩ := blockIndices t
  funext j
  have hj0 : (j 0).val < 4000 := (j 0).isLt
  have hj1 : (j 1).val < 64 := (j 1).isLt
  rw [View.read_apply, ← hG]
  refine (tile_of_rows c t A0 A1 A2 A3 A4 j (((cfg0.win 5).blk t).view.emb j) ?_ ?_).trans (cast_eq _ _).symm
  · show win0_5.index t (0 : Fin 2) * 4000 + 1 * (j 0).val = _; omega
  · show win0_5.index t (1 : Fin 2) * 64 + 1 * (j 1).val = _; omega

/-- Every row of the output is in some point's tile: row r in tile r / 4000. -/
theorem covered (i : S200000x64.Idx) :
    ∃ t : Fin cfg0.N, (cfg0.win 5).flush t = true ∧ i ∈ ((cfg0.win 5).blk t).view.set := by
  have hN : cfg0.N = 50 := N_0
  have hi0 : (i 0).val < 200000 := (i 0).isLt
  have hi1 : (i 1).val < 64 := (i 1).isLt
  obtain ⟨t, ht⟩ : ∃ t : Fin cfg0.N, t.val = (i 0).val / 4000 := ⟨⟨(i 0).val / 4000, by rw [hN]; omega⟩, rfl⟩
  obtain ⟨-, -, -, -, -, -, -, -, -, -, e0, e1⟩ := blockIndices t
  refine ⟨t, flush0_5 t, ?_⟩
  show i ∈ ((View.whole main_v24).slice (win0_5.rect t)).set
  rw [View.set_slice_whole, Rect.mem_set_unit]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 64 ≤ (i 1).val ∧ (i 1).val < win0_5.index t (1 : Fin 2) * 64 + 64; omega

/-- So the output array ends holding the perceptron over the five arrays, row by row. -/
theorem output_eq (c : Dev nD) : (dats m 0 c).arrAt 5 cfg0.N = rowsOut m c :=
  (dats m 0 c).arrAt_eq_of_cover 5 (rowsOut m c) (fun t _ => flushed_eq m c t) covered

end Cert.KernelIdeal.Hand

end
-- ==== Proof.Flatten.lean ====
/-
  The flattening is harmless. Reading the [4, 50000, 64] features as [200000, 64] in row-major order puts
  row (b, n) at row 50000·b + n; the perceptron acts on each row alone, so applying it to the flattened
  features (with the biases written as one-row matrices) and reading the result back as [4, 50000, 64] is
  the perceptron over the unflattened features.
-/
import proofs.«104502_j44951127720359_1_alg».proof.Proof.MlpSpec
import Idealize.ShloMosaic.Lib.Pipeline.Value
import Idealize.ShloMosaic.Lib.ValueLayout

noncomputable section

namespace Cert.Mlp

open Idealize.ShloMosaic Idealize.ShloMosaic.ValueIdx

theorem onRows_flattened (xm : FVec Ideal ⟨3, ![4, 50000, 64]⟩ .f32) (w1 : FVec Ideal ⟨2, ![64, 256]⟩ .f32)
    (b1 : FVec Ideal ⟨1, ![256]⟩ .f32) (w2 : FVec Ideal ⟨2, ![256, 64]⟩ .f32) (b2 : FVec Ideal ⟨1, ![64]⟩ .f32)
    (hx : (⟨3, ![4, 50000, 64]⟩ : Shape).ShapeCasts ⟨2, ![200000, 64]⟩)
    (hb1 : (⟨1, ![256]⟩ : Shape).ShapeCasts ⟨2, ![1, 256]⟩) (hb2 : (⟨1, ![64]⟩ : Shape).ShapeCasts ⟨2, ![1, 64]⟩)
    (ho : (⟨2, ![200000, 64]⟩ : Shape).ShapeCasts ⟨3, ![4, 50000, 64]⟩) :
    shapeCast ⟨3, ![4, 50000, 64]⟩
        (onRows (shapeCast ⟨2, ![200000, 64]⟩ xm hx) w1 (shapeCast ⟨2, ![1, 256]⟩ b1 hb1) w2
          (shapeCast ⟨2, ![1, 64]⟩ b2 hb2)) ho
      = onBatch xm w1 b1 w2 b2 := by
  funext i
  obtain ⟨b, n, o, rfl⟩ : ∃ (b : Fin 4) (n : Fin 50000) (o : Fin 64), i = ix3 b n o := ⟨i 0, i 1, i 2, eq_ix3 i⟩
  have hb : b.val < 4 := b.isLt
  have hn : n.val < 50000 := n.isLt
  have hr : b.val * 50000 + n.val < 200000 := by omega
  -- entry (b, n, o) of the result is entry (50000·b + n, o) of the flat one
  rw [shapeCast_apply _ ho (ix3 b n o) (ix2 (⟨b.val * 50000 + n.val, hr⟩ : Fin 200000) o) (by
    rw [Shape.rowMajor_val_two, Shape.rowMajor_val_three]; rfl)]
  -- and row 50000·b + n of the flat features is row (b, n)
  have hrow : ∀ c : Fin 64, shapeCast ⟨2, ![200000, 64]⟩ xm hx (ix2 (⟨b.val * 50000 + n.val, hr⟩ : Fin 200000) c) = xm (ix3 b n c) :=
    fun c => shapeCast_apply xm hx _ _ (by rw [Shape.rowMajor_val_two, Shape.rowMajor_val_three]; rfl)
  unfold onRows onBatch entry
  refine congrArg₂ (· + ·) (Finset.sum_congr rfl fun h _ => ?_) (shapeCast_a_1a_apply b2 hb2 0 o)
  refine congrArg₂ (fun s u => max (s + u) zeroWord * w2 (ix2 h o)) (Finset.sum_congr rfl fun c _ => ?_)
    (shapeCast_a_1a_apply b1 hb1 0 h)
  exact congrArg (· * w1 (ix2 c h)) (hrow c)

end Cert.Mlp

end
-- ==== Proof.KernelValue.lean ====
/-
  The idealized kernel's whole run. Before the region the host mixes the features (twenty-four operations,
  ending in the [4, 50000, 64] array called the mixed features here), flattens them to [200000, 64] and writes
  the two biases as one-row matrices; the region applies the perceptron tile by tile; after it the host reads
  the [200000, 64] output back as [4, 50000, 64]. So the result is the perceptron over the mixed features, and
  the mixed features themselves are never opened.
-/
import proofs.«104502_j44951127720359_1_alg».proof.Proof.KernelArray
import proofs.«104502_j44951127720359_1_alg».proof.Proof.Flatten
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

/-! ## The host lines around the region, at any float values -/

section Host
variable {F : FTy → Type} [FloatOps F]
variable (m : (ℓ : Loc nD τ sig) → Buf (Elt F) ℓ)

/-- The mixed features: what the host has in `main_v20` when the region is entered. -/
def mixed (c : Dev nD) : Vec F S4x50000x64 .f32 := V m c main_v20

set_option maxHeartbeats 2000000 in
/-- The region's first array is the mixed features flattened. -/
theorem rows_eq (c : Dev nD) :
    (V m c (Pipeline.arrRef spec0 0) : Vec F S200000x64 .f32) = shapeCast S200000x64 (mixed m c) shapeCasts_S4x50000x64_S200000x64 := by
  unfold mixed
  show (V m c main_v21 : Vec F S200000x64 .f32) = _
  dsimp only [V, V0]
  simp only [hostOps0, List.flatten_cons, List.flatten_nil, List.append_nil, List.cons_append, List.nil_append]
  after_results_simp
  rfl

set_option maxHeartbeats 2000000 in
/-- The two biases reach the region as one-row matrices. -/
theorem bias1_eq (c : Dev nD) :
    (V m c (Pipeline.arrRef spec0 2) : Vec F S1x256 .f32) = shapeCast S1x256 (m ((c : Thread nD τ).loc main_arg4)) shapeCasts_S256_S1x256 := by
  show (V m c main_v22 : Vec F S1x256 .f32) = _
  dsimp only [V, V0]
  simp only [hostOps0, List.flatten_cons, List.flatten_nil, List.append_nil, List.cons_append, List.nil_append]
  after_results_simp
  rfl
set_option maxHeartbeats 2000000 in
theorem bias2_eq (c : Dev nD) :
    (V m c (Pipeline.arrRef spec0 4) : Vec F S1x64 .f32) = shapeCast S1x64 (m ((c : Thread nD τ).loc main_arg6)) shapeCasts_S64_S1x64 := by
  show (V m c main_v23 : Vec F S1x64 .f32) = _
  dsimp only [V, V0]
  simp only [hostOps0, List.flatten_cons, List.flatten_nil, List.append_nil, List.cons_append, List.nil_append]
  after_results_simp
  rfl

/-- After the region the host reads the output array back as [4, 50000, 64]. -/
theorem tail_eq (c : Dev nD) :
    (Pipeline.afterTail₀ cfgs (dats m) 0 (V0 m) [hostOps1] c main_v25 : Vec F S4x50000x64 .f32)
      = shapeCast S4x50000x64 ((dats m 0 c).arrAt 5 cfg0.N) shapeCasts_S200000x64_S4x50000x64 := by
  unfold Pipeline.afterTail₀
  simp only [hostOps1, List.flatten_cons, List.flatten_nil, List.append_nil, List.cons_append, List.nil_append]
  after_results
  exact congrArg (fun a => shapeCast S4x50000x64 a shapeCasts_S200000x64_S4x50000x64)
    (Pipeline.withArrays_arr spec0 launch0.win.arr_inj c _ _ 5)

end Host

/-! ## The result -/

variable (m : (ℓ : Loc nD τ sig) → Buf (Elt Ideal) ℓ) (ρ : Dev nD → PrngReg)

/-- The program's result: the perceptron over the mixed features. -/
def result (c : Dev nD) : Vec Ideal S4x50000x64 .f32 :=
  Cert.Mlp.onBatch (mixed m c) (m ((c : Thread nD τ).loc main_arg3)) (m ((c : Thread nD τ).loc main_arg4))
    (m ((c : Thread nD τ).loc main_arg5)) (m ((c : Thread nD τ).loc main_arg6))

theorem result_eq (c : Dev nD) :
    (Pipeline.afterTail₀ cfgs (dats m) 0 (V0 m) [hostOps1] c main_v25 : Vec Ideal S4x50000x64 .f32) = result m c := by
  rw [tail_eq, output_eq]
  unfold rowsOut result
  rw [rows_eq, bias1_eq, bias2_eq, show V m c (Pipeline.arrRef spec0 1) = _ from V_main_arg3 m c,
    show V m c (Pipeline.arrRef spec0 3) = _ from V_main_arg5 m c]
  generalize mixed m c = xm
  exact Cert.Mlp.onRows_flattened xm _ _ _ _ _ _ _ _

/-- Every weakly fair execution ends with the result array at the perceptron over the mixed features and the seven
    arguments as they were. -/
theorem run : θ_run defs (onTc (τ := τ) (main (F := Ideal))) ⟨m, fun _ => 0, ρ⟩ fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v25 (Pipeline.mem_restRefs_of main_v25 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c),
      ((h c).1 3).trans (((dats m 0 c).arrAt_in 3 rfl _).trans ((A_eq m c 3).trans (V_main_arg5 m c))),
      ((h c).2 main_arg6 (Pipeline.mem_restRefs_of main_arg6 (by decide) (by decide))).trans (W_main_arg6 m (dats m) c)⟩)
    (run_main m ρ)

end Cert.KernelIdeal.Hand

end
-- ==== Proof.RefRead.lean ====
/-
  The reference read entry by entry. After the mixed features (its first twenty-one operations, left as the
  one array they produce) the reference contracts with W1, adds b1 along the last axis, rectifies against a
  broadcast zero, contracts with W2 and adds b2: at output index (b, n, o) that is the perceptron's entry o
  on row (b, n) of the mixed features.
-/
import proofs.«104502_j44951127720359_1_alg».proof.Proof.Gen.ReferenceIdeal.Read
import proofs.«104502_j44951127720359_1_alg».proof.Proof.MlpSpec

noncomputable section

namespace Cert.ReferenceIdeal.Hand

open Cert.ReferenceIdeal Cert.ReferenceIdeal.Read Idealize.ShloMosaic Idealize.ShloMosaic.ValueIdx

variable (x0 : (⟨S4x50000x64, .f32⟩ : BufTy).Contents (Elt Ideal)) (x1 : (⟨S2x800000, .i32⟩ : BufTy).Contents (Elt Ideal))
  (x2 : (⟨S800000, .f32⟩ : BufTy).Contents (Elt Ideal)) (x3 : (⟨S64x256, .f32⟩ : BufTy).Contents (Elt Ideal))
  (x4 : (⟨S256, .f32⟩ : BufTy).Contents (Elt Ideal)) (x5 : (⟨S256x64, .f32⟩ : BufTy).Contents (Elt Ideal))
  (x6 : (⟨S64, .f32⟩ : BufTy).Contents (Elt Ideal))

/-- The first contraction reads row (b, n) of the mixed features and column h of W1. -/
theorem lidx21 (i : S4x50000x64.Idx) (h : Fin 256) (c : Fin 64) :
    lidx_main_v21 (lidx_main_v26 i h) c = ix3 (i 0) (i 1) c :=
  funext fun a => match a with | ⟨0, _⟩ => rfl | ⟨1, _⟩ => rfl | ⟨2, _⟩ => rfl
theorem ridx21 (i : S4x50000x64.Idx) (h : Fin 256) (c : Fin 64) :
    ridx_main_v21 (lidx_main_v26 i h) c = ix2 c h :=
  funext fun a => match a with | ⟨0, _⟩ => rfl | ⟨1, _⟩ => rfl
/-- The first bias is read at the hidden unit. -/
theorem idx22 (i : S4x50000x64.Idx) (h : Fin 256) :
    idx_main_v22 (idx_main_v23 (lidx_main_v26 i h)) = ix1 h :=
  funext fun a => match a with | ⟨0, _⟩ => rfl
/-- The second contraction reads column o of W2, the second bias entry o. -/
theorem ridx26 (i : S4x50000x64.Idx) (h : Fin 256) : ridx_main_v26 i h = ix2 h (i 2) :=
  funext fun a => match a with | ⟨0, _⟩ => rfl | ⟨1, _⟩ => rfl
theorem idx27 (i : S4x50000x64.Idx) : idx_main_v27 (idx_main_v28 i) = ix1 (i 2) :=
  funext fun a => match a with | ⟨0, _⟩ => rfl

/-- The reference's result is the perceptron over its own mixed features. -/
theorem result_eq :
    val_main_v29 (F := Ideal) x0 x1 x2 x3 x4 x5 x6
      = Cert.Mlp.onBatch (val_main_v20 (F := Ideal) x0 x1 x2) x3 x4 x5 x6 := by
  funext i
  rw [val_main_v29_apply, val_main_v26_apply, val_main_v28_apply, val_main_v27_apply]
  unfold Cert.Mlp.onBatch Cert.Mlp.entry
  refine congrArg₂ (· + ·) (Finset.sum_congr rfl fun h _ => ?_) (congrArg x6 (idx27 i))
  rw [val_main_v25_apply, val_main_v24_apply, val_main_v21_apply, val_main_v23_apply, val_main_v22_apply,
    val_main_call0_v0_apply, val_main_call0_cst_apply]
  rw [ridx26, idx22, Ideal.maximumf_def, Ideal.addf_def, Ideal.ofBits_def]
  refine congrArg (fun s => max (s + x4 (ix1 h)) Cert.Mlp.zeroWord * x5 (ix2 h (i 2))) (Finset.sum_congr rfl fun c _ => ?_)
  rw [lidx21, ridx21]
  rfl

end Cert.ReferenceIdeal.Hand

end
-- ==== Proof.SameMix.lean ====
/-
  The two programs mix the features by the same operations. Both hosts run, on the same three arguments, the
  same twenty-four lines (slice the index pairs, wrap negative column indices, gather rows of the transposed
  features, scale by the edge values, scatter-add into the row sums, transpose back); the kernel's program
  then hands the result to its perceptron, the reference to its own. So the mixed features the idealized
  kernel's region finds are the reference's `main_v20`, as terms, and are carried as one array.
-/
import proofs.«104502_j44951127720359_1_alg».proof.Proof.Gen.ReferenceIdeal.Read
import proofs.«104502_j44951127720359_1_alg».proof.Proof.KernelValue

set_option maxRecDepth 16384

noncomputable section

namespace Cert.Proof

open Idealize.ShloMosaic Idealize.ShloMosaic.TcCoe Idealize.SL.Sem Idealize.ShloMosaic.StableHlo

set_option maxHeartbeats 2000000 in
theorem mixed_eq (m : (ℓ : Loc Cert.KernelIdeal.nD Cert.KernelIdeal.τ Cert.KernelIdeal.sig) → Buf (Elt Ideal) ℓ)
    (c : Dev Cert.KernelIdeal.nD) :
    Cert.KernelIdeal.Hand.mixed m c
      = Cert.ReferenceIdeal.Read.val_main_v20 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  unfold Cert.KernelIdeal.Hand.mixed
  dsimp only [Cert.KernelIdeal.Gen.V, Cert.KernelIdeal.Gen.V0]
  simp only [Cert.KernelIdeal.Gen.hostOps0, List.flatten_cons, List.flatten_nil, List.append_nil, List.cons_append, List.nil_append]
  after_results_simp
  rfl

end Cert.Proof

end
-- ==== Proof.lean ====
/-
  The certificate. A graph layer: features x : [4, 50000, 64] are mixed along 800000 weighted edges (gather
  the source rows, scale by the edge values, sum into the target rows), and a two-layer perceptron with a
  rectifier is applied to every mixed row. The kernel's program and the reference mix the features by the
  same host operations; the kernel then runs the perceptron in a pipelined region over [4000, 64] tiles of
  the flattened rows, with bfloat16 casts that are the identity on the extended reals, where the reference
  uses two batched contractions. Both end at the same function of the arguments:

      out (b, n, o) = (∑ h, max ((∑ c, mixed (b, n, c) · W1 (c, h)) + b1 h) 0 · W2 (h, o)) + b2 o.

  The two sides are the same sums in the same arrangement, so no algebraic law and no finiteness is used.
  The three frames are the generated ones; nothing was rewritten by the idealization, so `preserves` is
  trivial.
-/
import proofs.«104502_j44951127720359_1_alg».proof.Defs
import proofs.«104502_j44951127720359_1_alg».proof.Proof.Gen.Kernel
import proofs.«104502_j44951127720359_1_alg».proof.Proof.Gen.Kernel.Skeleton
import proofs.«104502_j44951127720359_1_alg».proof.Proof.Gen.Kernel.Launch
import proofs.«104502_j44951127720359_1_alg».proof.Proof.Gen.Kernel.Points
import proofs.«104502_j44951127720359_1_alg».proof.Proof.Gen.Kernel.Frame
import proofs.«104502_j44951127720359_1_alg».proof.Proof.Gen.KernelIdeal
import proofs.«104502_j44951127720359_1_alg».proof.Proof.Gen.KernelIdeal.Skeleton
import proofs.«104502_j44951127720359_1_alg».proof.Proof.Gen.KernelIdeal.Launch
import proofs.«104502_j44951127720359_1_alg».proof.Proof.Gen.KernelIdeal.Points
import proofs.«104502_j44951127720359_1_alg».proof.Proof.Gen.KernelIdeal.Frame
import proofs.«104502_j44951127720359_1_alg».proof.Proof.Gen.ReferenceIdeal
import proofs.«104502_j44951127720359_1_alg».proof.Proof.Gen.ReferenceIdeal.Run
import proofs.«104502_j44951127720359_1_alg».proof.Proof.Gen.ReferenceIdeal.Read
import proofs.«104502_j44951127720359_1_alg».proof.Proof.Gen.Pre_finite_inputs
import proofs.«104502_j44951127720359_1_alg».proof.Proof.KernelValue
import proofs.«104502_j44951127720359_1_alg».proof.Proof.RefRead
import proofs.«104502_j44951127720359_1_alg».proof.Proof.SameMix
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end at the perceptron over the mixed features: the kernel's by its run read tile by tile, the
    reference's by its operations read entry by entry, the mixed features one array on both sides. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  show _ = Cert.KernelIdeal.Hand.result m c
  rw [h0, h1, h2, h3, h4, h5, h6]
  refine (Cert.ReferenceIdeal.Read.val_main_v29_eq _ _ _ _ _ _ _).trans ?_
  rw [Cert.ReferenceIdeal.Hand.result_eq]
  unfold Cert.KernelIdeal.Hand.result
  rw [mixed_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
